-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S16384x16384 : Shape := ⟨2, ![16384, 16384]⟩
abbrev S2x524288 : Shape := ⟨2, ![2, 524288]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_

variable [Facts]

def fn {F : FTy → Type} [FloatOps F] (main_arg0 : FVec F S16384x32 .f32) (main_arg1 : FVec F S16384x32 .f32) (main_arg2 : FVec F S16384x16384 .f32) (main_arg3 : IVec S2x524288 32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S16384x16384 .f32 := Host.absf main_arg2
  let main_cst_2 : FVec F S_ .f32 := constant S_ .f32 0x7F800000#32
  let main_v10 : FVec F S16384x16384 .f32 := broadcastInDim S16384x16384 ![] bcast_S_S16384x16384 main_cst_2
  let main_v11 : IVec S16384x16384 1 := cmpf .olt main_v9 main_v10
  let main_c_3 : IVec S_ 1 := constantI S_ 1 1#1
  let main_v12 : IVec S_ 1 := (fun x v => Host.reduce IntOp.andi x v reducesTo_S16384x16384_S_d0_1 h_S_) main_v11 main_c_3
  let main_v13 : IVec S_ 1 := andi main_v8 main_v12
  main_v13
-- ==== Kernel.lean ====
abbrev S16384x32 : Shape := ⟨2, ![16384, 32]⟩
abbrev S16384x16384 : Shape := ⟨2, ![16384, 16384]⟩
abbrev S2x524288 : Shape := ⟨2, ![2, 524288]⟩
abbrev S1024x2048 : Shape := ⟨2, ![1024, 2048]⟩
abbrev S2048x32 : Shape := ⟨2, ![2048, 32]⟩
abbrev S1024x32 : Shape := ⟨2, ![1024, 32]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x32 : Shape := ⟨2, ![524288, 32]⟩

abbrev nBuf : Space → Nat
  | .hbm => 22
  | .vmem => 7
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S16384x16384, .f32⟩
  | .hbm, ⟨3, _⟩ => ⟨S2x524288, .i32⟩
  | .hbm, ⟨4, _⟩ => ⟨S16384x32, .f32⟩
  | .hbm, ⟨5, _⟩ => ⟨S1x524288, .i32⟩
  | .hbm, ⟨6, _⟩ => ⟨S524288, .i32⟩
  | .hbm, ⟨7, _⟩ => ⟨S1x524288, .i32⟩
  | .hbm, ⟨8, _⟩ => ⟨S524288, .i32⟩
  | .hbm, ⟨9, _⟩ => ⟨S_, .i32⟩
  | .hbm, ⟨10, _⟩ => ⟨S524288, .i32⟩
  | .hbm, ⟨11, _⟩ => ⟨S524288, .i1⟩
  | .hbm, ⟨12, _⟩ => ⟨S_, .i32⟩
  | .hbm, ⟨13, _⟩ => ⟨S524288, .i32⟩
  | .hbm, ⟨14, _⟩ => ⟨S524288, .i32⟩
  | .hbm, ⟨15, _⟩ => ⟨S524288, .i32⟩
  | .hbm, ⟨16, _⟩ => ⟨S524288x1, .i32⟩
  | .hbm, ⟨17, _⟩ => ⟨S524288x32, .f32⟩
  | .hbm, ⟨18, _⟩ => ⟨S_, .f32⟩
  | .hbm, ⟨19, _⟩ => ⟨S16384x32, .f32⟩
  | .hbm, ⟨20, _⟩ => ⟨S524288x1, .i32⟩
  | .hbm, ⟨21, _⟩ => ⟨S16384x32, .f32⟩
  | .local _ .vmem, ⟨0, _⟩ => ⟨S1024x2048, .f32⟩
  | .local _ .vmem, ⟨1, _⟩ => ⟨S1024x2048, .f32⟩
  | .local _ .vmem, ⟨2, _⟩ => ⟨S2048x32, .f32⟩
  | .local _ .vmem, ⟨3, _⟩ => ⟨S2048x32, .f32⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x32_S2048x32_0_0 : ∀ a, (![0, 0] : Fin 2 → Nat) a + S2048x32.size a ≤ S2048x32.size a
  h_S2048x32 : 0 < S2048x32.numel
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S16384x32 : S_.BroadcastsInDim S16384x32 (![] : Fin 0 → Fin S16384x32.rank)
  dot_S1024x2048_S2048x32_S1024x32_1_0_0_1_n_n_wf : DotDims.WF S1024x2048 S2048x32 S1024x32 [1] [0] [0] [1] [] []
  gather_S16384x32_S524288x1_S524288x32_1_0_n_n_0_1_132_wf : GatherDims.WF S16384x32 S524288x1 S524288x32 [1] [0] [] [0] [] 1 ![1, 32]
  scatter_S16384x32_S524288x1_S524288x32_1_0_0_1_wf : ScatterDims.WF S16384x32 S524288x1 S524288x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S16384x32.size a
  hwx0_1 : ∀ i : grid0.Coords, EltTy.bits .f32 = 32 ∨ (Rect.block (s := S16384x32) S2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S16384x32.size a
  hwx0_2 : ∀ i : grid0.Coords, EltTy.bits .f32 = 32 ∨ (Rect.block (s := S16384x32) S1024x32.size (cc0_transform_2 i) (hinb0_2 i)).WholeWords (EltTy.packing .f32)

variable [Facts₀]

def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf
def gather_S16384x32_S524288x1_S524288x32_1_0_n_n_0_1_132 : GatherDims S16384x32 S524288x1 S524288x32 where
  offsetDims := [1]
  collapsedSliceDims := [0]
  operandBatchingDims := []
  startIndicesBatchingDims := []
  startIndexMap := [0]
  indexVectorDim := 1
  sliceSizes := ![1, 32]
  wf := gather_S16384x32_S524288x1_S524288x32_1_0_n_n_0_1_132_wf
def scatter_S16384x32_S524288x1_S524288x32_1_0_0_1 : ScatterDims S16384x32 S524288x1 S524288x32 where
  updateWindowDims := [1]
  insertedWindowDims := [0]
  scatterDimsToOperandDims := [0]
  indexVectorDim := 1
  wf := scatter_S16384x32_S524288x1_S524288x32_1_0_0_1_wf

abbrev win0_0 : Pipeline.Window sig grid0 :=
  Pipeline.Window.ofSpec (Memref.whole main_arg2) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x32 : Shape := ⟨2, ![16384, 32]⟩
abbrev S16384x16384 : Shape := ⟨2, ![16384, 16384]⟩
abbrev S2x524288 : Shape := ⟨2, ![2, 524288]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x32 : Shape := ⟨2, ![524288, 32]⟩

abbrev nBuf : Space → Nat
  | .hbm => 22
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S16384x16384, .f32⟩
  | .hbm, ⟨3, _⟩ => ⟨S2x524288, .i32⟩
  | .hbm, ⟨4, _⟩ => ⟨S16384x32, .f32⟩
  | .hbm, ⟨5, _⟩ => ⟨S1x524288, .i32⟩
  | .hbm, ⟨6, _⟩ => ⟨S524288, .i32⟩
  | .hbm, ⟨7, _⟩ => ⟨S1x524288, .i32⟩
  | .hbm, ⟨8, _⟩ => ⟨S524288, .i32⟩
  | .hbm, ⟨9, _⟩ => ⟨S_, .i32⟩
  | .hbm, ⟨10, _⟩ => ⟨S524288, .i32⟩
  | .hbm, ⟨11, _⟩ => ⟨S524288, .i1⟩
  | .hbm, ⟨12, _⟩ => ⟨S_, .i32⟩
  | .hbm, ⟨13, _⟩ => ⟨S524288, .i32⟩
  | .hbm, ⟨14, _⟩ => ⟨S524288, .i32⟩
  | .hbm, ⟨15, _⟩ => ⟨S524288, .i32⟩
  | .hbm, ⟨16, _⟩ => ⟨S524288x1, .i32⟩
  | .hbm, ⟨17, _⟩ => ⟨S524288x32, .f32⟩
  | .hbm, ⟨18, _⟩ => ⟨S_, .f32⟩
  | .hbm, ⟨19, _⟩ => ⟨S16384x32, .f32⟩
  | .hbm, ⟨20, _⟩ => ⟨S524288x1, .i32⟩
  | .hbm, ⟨21, _⟩ => ⟨S16384x32, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S16384x32 : S_.BroadcastsInDim S16384x32 (![] : Fin 0 → Fin S16384x32.rank)
  dot_S16384x16384_S16384x32_S16384x32_1_0_0_1_n_n_wf : DotDims.WF S16384x16384 S16384x32 S16384x32 [1] [0] [0] [1] [] []
  gather_S16384x32_S524288x1_S524288x32_1_0_n_n_0_1_132_wf : GatherDims.WF S16384x32 S524288x1 S524288x32 [1] [0] [] [0] [] 1 ![1, 32]
  scatter_S16384x32_S524288x1_S524288x32_1_0_0_1_wf : ScatterDims.WF S16384x32 S524288x1 S524288x32 [1] [0] [0] 1

variable [Facts₀]

def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf
def gather_S16384x32_S524288x1_S524288x32_1_0_n_n_0_1_132 : GatherDims S16384x32 S524288x1 S524288x32 where
  offsetDims := [1]
  collapsedSliceDims := [0]
  operandBatchingDims := []
  startIndicesBatchingDims := []
  startIndexMap := [0]
  indexVectorDim := 1
  sliceSizes := ![1, 32]
  wf := gather_S16384x32_S524288x1_S524288x32_1_0_n_n_0_1_132_wf
def scatter_S16384x32_S524288x1_S524288x32_1_0_0_1 : ScatterDims S16384x32 S524288x1 S524288x32 where
  updateWindowDims := [1]
  insertedWindowDims := [0]
  scatterDimsToOperandDims := [0]
  indexVectorDim := 1
  wf := scatter_S16384x32_S524288x1_S524288x32_1_0_0_1_wf

class Facts : Prop extends Facts₀ where

variable [Facts]
-- ==== Proof.Pieces.lean ====
/-
  What one run of the kernel body leaves behind, as values.

  The body keeps a running accumulator in a scratch block of shape [1024, 32].  At a grid point it
  (i) zeroes the accumulator if this is the first step along the contraction axis, (ii) replaces the
  accumulator `s` by `s + x · w` for the point's [1024, 2048] block `x` of the left matrix and
  [2048, 32] block `w` of the right matrix, and (iii) on the last step copies the accumulator into the
  output block.  So in every case the accumulator ends as the update `k0_pay2 x w s` of what it held
  before (the zero block `k0_pay1` on a first step), and on a last step the output block is that same
  update.
-/
import proofs.«115345_j53223234732610_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A first step along the contraction axis: the accumulator is zeroed, read back, and ends as
    `0 + x · w`. -/
theorem acc_first (c : Dev nD) (i : grid0.Coords) (a2 : Memref sig .tc .vmem S1024x2048 .f32) (h2 : a2.IsWhole)
    (a3 : Memref sig .tc .vmem S2048x32 .f32) (h3 : a3.IsWhole) (a4 : Memref sig .tc .vmem S1024x32 .f32) (h4 : a4.IsWhole)
    (a5 : Memref sig .tc .vmem S1024x32 .f32) (h5 : a5.IsWhole) (hc0 : cond0_0 i) (hc1 : ¬cond0_1 i)
    (x : Vec F S1024x2048 .f32) (w : Vec F S2048x32 .f32) :
    sout0_A_0 c i a2 h2 a3 h3 a4 h4 a5 h5 hc0 hc1 x w = k0_pay2 x w (k0_pay1 (F := F)) := by
  unfold sout0_A_0
  rw [View.read_writes_eq_canon _ _ _ (scover0_A_0 c i a2 h2 a3 h3 a4 h4 a5 h5 hc0 hc1 x w)]
  unfold kernelRun0_A
  dsimp only
  sl_unfold_words
  rw [View.canon_cons_unit_zero (S := S1024x32) hz, View.readCov_unit_zero (S := S1024x32) _ hz]
  simp only [View.readAt_eq_ld, h2.read_unread, h3.read_unread, View.ld_unit_zero (S := S1024x2048) hz,
    View.ld_unit_zero (S := S2048x32) hz]

/-- A middle step: the accumulator `s` ends as `s + x · w`. -/
theorem acc_middle (c : Dev nD) (i : grid0.Coords) (a2 : Memref sig .tc .vmem S1024x2048 .f32) (h2 : a2.IsWhole)
    (a3 : Memref sig .tc .vmem S2048x32 .f32) (h3 : a3.IsWhole) (a4 : Memref sig .tc .vmem S1024x32 .f32) (h4 : a4.IsWhole)
    (a5 : Memref sig .tc .vmem S1024x32 .f32) (h5 : a5.IsWhole) (hc0 : ¬cond0_0 i) (hc1 : ¬cond0_1 i)
    (x : Vec F S1024x2048 .f32) (w : Vec F S2048x32 .f32) (s : Vec F S1024x32 .f32) :
    sout0_B_0 c i a2 h2 a3 h3 a4 h4 a5 h5 hc0 hc1 x w s = k0_pay2 x w s := by
  unfold sout0_B_0
  rw [View.read_writes_eq_canon _ _ _ (scover0_B_0 c i a2 h2 a3 h3 a4 h4 a5 h5 hc0 hc1 x w s)]
  unfold kernelRun0_B
  dsimp only
  sl_unfold_words
  rw [View.canon_unit_zero hz]
  simp only [View.readAt_eq_ld, h2.read_unread, h3.read_unread, h5.read_unread, View.ld_unit_zero (S := S1024x2048) hz,
    View.ld_unit_zero (S := S2048x32) hz, View.ld_unit_zero (S := S1024x32) hz]

/-- A last step: the accumulator `s` ends as `s + x · w` … -/
theorem acc_last (c : Dev nD) (i : grid0.Coords) (a2 : Memref sig .tc .vmem S1024x2048 .f32) (h2 : a2.IsWhole)
    (a3 : Memref sig .tc .vmem S2048x32 .f32) (h3 : a3.IsWhole) (a4 : Memref sig .tc .vmem S1024x32 .f32) (h4 : a4.IsWhole)
    (a5 : Memref sig .tc .vmem S1024x32 .f32) (h5 : a5.IsWhole) (hc0 : ¬cond0_0 i) (hc1 : cond0_1 i)
    (x : Vec F S1024x2048 .f32) (w : Vec F S2048x32 .f32) (s : Vec F S1024x32 .f32) :
    sout0_C_0 c i a2 h2 a3 h3 a4 h4 a5 h5 hc0 hc1 x w s = k0_pay2 x w s := by
  unfold sout0_C_0
  rw [View.read_writes_eq_canon _ _ _ (scover0_C_0 c i a2 h2 a3 h3 a4 h4 a5 h5 hc0 hc1 x w s)]
  unfold kernelRun0_C
  dsimp only
  sl_unfold_words
  rw [View.canon_unit_zero hz]
  simp only [View.readAt_eq_ld, h2.read_unread, h3.read_unread, h5.read_unread, View.ld_unit_zero (S := S1024x2048) hz,
    View.ld_unit_zero (S := S2048x32) hz, View.ld_unit_zero (S := S1024x32) hz]

/-- … and the output block is a copy of it. -/
theorem out_last (c : Dev nD) (i : grid0.Coords) (a2 : Memref sig .tc .vmem S1024x2048 .f32) (h2 : a2.IsWhole)
    (a3 : Memref sig .tc .vmem S2048x32 .f32) (h3 : a3.IsWhole) (a4 : Memref sig .tc .vmem S1024x32 .f32) (h4 : a4.IsWhole)
    (a5 : Memref sig .tc .vmem S1024x32 .f32) (h5 : a5.IsWhole) (hc0 : ¬cond0_0 i) (hc1 : cond0_1 i)
    (x : Vec F S1024x2048 .f32) (w : Vec F S2048x32 .f32) (s : Vec F S1024x32 .f32) :
    out0_C_2 c i a2 h2 a3 h3 a4 h4 a5 h5 hc0 hc1 x w s = k0_pay2 x w s := by
  unfold out0_C_2
  rw [View.read_writes_eq_canon _ _ _ (cover0_C_2 c i a2 h2 a3 h3 a4 h4 a5 h5 hc0 hc1 x w s)]
  unfold kernelRun0_C
  dsimp only
  sl_unfold_words
  rw [View.canon_unit_zero hz]
  simp only [View.readAt_eq_ld, h2.read_unread, h3.read_unread, h5.read_unread, View.ld_unit_zero (S := S1024x2048) hz,
    View.ld_unit_zero (S := S2048x32) hz, View.ld_unit_zero (S := S1024x32) hz, View.readCov_unit_zero (S := S1024x32) _ hz]

end Cert.KernelIdeal.Pieces

end
-- ==== Proof.BlockDot.lean ====
/-
  The body's two values at an index, over the extended reals.

  The zero block is 0 everywhere.  The update `s ↦ s + x · w` of the accumulator, at row `p` and
  column `q`, is `s p q + ∑_{j < 2048} x p j · w j q`: the change of float format before the matrix
  unit is the identity on extended reals, the matrix unit adds the contraction sum to a zero
  accumulator, and the contraction index of a one-axis contraction is its one coordinate.
-/
import proofs.«115345_j53223234732610_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BlockDot

open Cert.KernelIdeal Cert.KernelIdeal.Gen Idealize.ShloMosaic Idealize.ShloMosaic.ValueIdx

/-- The left operand is read at the output's row … -/
theorem lhs_row (i : S1024x32.Idx) (q : dot_S1024x2048_S2048x32_S1024x32_1_0_0_1_n_n.contr.Idx) :
    (dot_S1024x2048_S2048x32_S1024x32_1_0_0_1_n_n.lhsIdx i q 0).val = (i 0).val := by
  unfold DotDims.lhsIdx
  rw [dif_neg (show ¬(0 : Fin S1024x2048.rank) ∈ dot_S1024x2048_S2048x32_S1024x32_1_0_0_1_n_n.lhsBatch by decide), dif_pos (show (0 : Fin S1024x2048.rank) ∈ dot_S1024x2048_S2048x32_S1024x32_1_0_0_1_n_n.lhsNonContracting by decide)]
  rfl
/-- … and the contraction coordinate; -/
theorem lhs_col (i : S1024x32.Idx) (q : dot_S1024x2048_S2048x32_S1024x32_1_0_0_1_n_n.contr.Idx) :
    (dot_S1024x2048_S2048x32_S1024x32_1_0_0_1_n_n.lhsIdx i q 1).val = (q ⟨0, by decide⟩).val :=
  dot_S1024x2048_S2048x32_S1024x32_1_0_0_1_n_n.lhsIdx_val_of_single rfl i q
/-- the right operand at the contraction coordinate … -/
theorem rhs_row (i : S1024x32.Idx) (q : dot_S1024x2048_S2048x32_S1024x32_1_0_0_1_n_n.contr.Idx) :
    (dot_S1024x2048_S2048x32_S1024x32_1_0_0_1_n_n.rhsIdx i q 0).val = (q ⟨0, by decide⟩).val :=
  dot_S1024x2048_S2048x32_S1024x32_1_0_0_1_n_n.rhsIdx_val_of_single rfl i q
/-- … and the output's column. -/
theorem rhs_col (i : S1024x32.Idx) (q : dot_S1024x2048_S2048x32_S1024x32_1_0_0_1_n_n.contr.Idx) :
    (dot_S1024x2048_S2048x32_S1024x32_1_0_0_1_n_n.rhsIdx i q 1).val = (i 1).val := by
  unfold DotDims.rhsIdx
  rw [dif_neg (show ¬(1 : Fin S2048x32.rank) ∈ dot_S1024x2048_S2048x32_S1024x32_1_0_0_1_n_n.rhsBatch by decide), dif_pos (show (1 : Fin S2048x32.rank) ∈ dot_S1024x2048_S2048x32_S1024x32_1_0_0_1_n_n.rhsNonContracting by decide)]
  rfl

/-- The zero block is 0 at every index. -/
theorem zero_apply (y : S1024x32.Idx) : (k0_pay1 (F := Ideal) : FVec Ideal S1024x32 .f32) y = 0 := by
  unfold k0_pay1
  refine (congrFun (shapeCast_self _ _) y).trans ?_
  exact Ideal.ofBits_zero_f32

/-- The accumulator's update at row `p`, column `q`: what it held there plus the block's contraction sum. -/
theorem update_apply (x : FVec Ideal S1024x2048 .f32) (w : FVec Ideal S2048x32 .f32) (s : FVec Ideal S1024x32 .f32)
    (p : Fin 1024) (q : Fin 32) :
    (k0_pay2 (F := Ideal) x w s : FVec Ideal S1024x32 .f32) (ix2 p q) = s (ix2 p q) + ∑ j : Fin 2048, x (ix2 p j) * w (ix2 j q) := by
  unfold k0_pay2
  refine (congrFun (shapeCast_self _ _) (ix2 p q)).trans ?_
  show s (ix2 p q) + FloatOps.matmul dot_S1024x2048_S2048x32_S1024x32_1_0_0_1_n_n none (truncf .bf16 x bitsLt_bf16_f32) (truncf .bf16 w bitsLt_bf16_f32) (constant S1024x32 .f32 0x00000000#32) (ix2 p q) = _
  refine congrArg (s (ix2 p q) + ·) ?_
  refine (Ideal.matmul_constant_zero_apply dot_S1024x2048_S2048x32_S1024x32_1_0_0_1_n_n none (truncf .bf16 x bitsLt_bf16_f32) (truncf .bf16 w bitsLt_bf16_f32) (ix2 p q)).trans ?_
  rw [← Equiv.sum_comp (contrEquiv1 dot_S1024x2048_S2048x32_S1024x32_1_0_0_1_n_n 2048 rfl rfl).symm]
  refine Finset.sum_congr rfl fun k _ => ?_
  have hk := contrEquiv1_symm_val dot_S1024x2048_S2048x32_S1024x32_1_0_0_1_n_n 2048 rfl rfl k
  have el : dot_S1024x2048_S2048x32_S1024x32_1_0_0_1_n_n.lhsIdx (ix2 p q) ((contrEquiv1 dot_S1024x2048_S2048x32_S1024x32_1_0_0_1_n_n 2048 rfl rfl).symm k) = ix2 p k := funext fun a => Fin.ext (by
    match a with
    | ⟨0, _⟩ => exact lhs_row _ _
    | ⟨1, _⟩ => exact (lhs_col _ _).trans hk)
  have er : dot_S1024x2048_S2048x32_S1024x32_1_0_0_1_n_n.rhsIdx (ix2 p q) ((contrEquiv1 dot_S1024x2048_S2048x32_S1024x32_1_0_0_1_n_n 2048 rfl rfl).symm k) = ix2 k q := funext fun a => Fin.ext (by
    match a with
    | ⟨0, _⟩ => exact (rhs_row _ _).trans hk
    | ⟨1, _⟩ => exact rhs_col _ _)
  rw [el, er]
  rfl

end Cert.KernelIdeal.BlockDot

end
-- ==== Proof.DotSpec.lean ====
/-
  The specification: entry (r, q) of the matrix product `A · B` as a sum over the contraction index,
  and the sum's partial sums.

  A matrix over [R, C] is extended by zero to all pairs of naturals (`ext`), so that rows, columns and
  the contraction index can be plain naturals and a block's entry `(1024·i + p, 2048·k + j)` needs no
  bound carried along.  `dotUpTo A B n r q` is the partial sum `∑_{j < n} A r j · B j q`.  The
  extended reals under `+` form a commutative monoid (no cancellation is used), so a partial sum over
  `2048·(k+1)` terms is the one over `2048·k` terms plus the next block of 2048 terms
  (`dotUpTo_block`): this is the only law that joins the kernel's accumulation, block by block along
  the contraction axis, to the reference's single sum.
-/
import Idealize.ShloMosaic.Lib.ValueIdx
import Idealize.ShloMosaic.PureOps.Ideal.Laws

noncomputable section

open scoped BigOperators

namespace Cert.DotSpec

open Idealize.ShloMosaic Idealize.ShloMosaic.ValueIdx

/-- A matrix over [R, C], extended by zero to all pairs of naturals. -/
def ext (R C : ℕ) (A : (⟨2, ![R, C]⟩ : Shape).Idx → EReal) (r c : ℕ) : EReal :=
  if h : r < R ∧ c < C then A (ix2 ⟨r, h.1⟩ ⟨c, h.2⟩) else 0

theorem ext_of_lt {R C : ℕ} (A : (⟨2, ![R, C]⟩ : Shape).Idx → EReal) {r c : ℕ} (hr : r < R) (hc : c < C) :
    ext R C A r c = A (ix2 ⟨r, hr⟩ ⟨c, hc⟩) := dif_pos ⟨hr, hc⟩

/-- The partial sum `∑_{j < n} A r j · B j q` of entry (r, q) of the product. -/
def dotUpTo (A B : ℕ → ℕ → EReal) (n r q : ℕ) : EReal := ∑ j ∈ Finset.range n, A r j * B j q

theorem dotUpTo_zero (A B : ℕ → ℕ → EReal) (r q : ℕ) : dotUpTo A B 0 r q = 0 := Finset.sum_range_zero _

/-- One more block of 2048 terms: the partial sum over `2048·k` terms plus the terms
    `2048·k, …, 2048·k + 2047` is the partial sum over `2048·(k+1)` terms. -/
theorem dotUpTo_block (A B : ℕ → ℕ → EReal) (k r q : ℕ) :
    dotUpTo A B (2048 * k) r q + ∑ j : Fin 2048, A r (2048 * k + j.val) * B (2048 * k + j.val) q
      = dotUpTo A B (2048 * (k + 1)) r q := by
  unfold dotUpTo
  rw [Nat.mul_succ, Finset.sum_range_add,
    Fin.sum_univ_eq_sum_range (fun j => A r (2048 * k + j) * B (2048 * k + j) q) 2048]

/-- The first block alone, added to zero. -/
theorem dotUpTo_first (A B : ℕ → ℕ → EReal) (r q : ℕ) :
    (0 : EReal) + ∑ j : Fin 2048, A r (2048 * 0 + j.val) * B (2048 * 0 + j.val) q = dotUpTo A B (2048 * (0 + 1)) r q := by
  rw [← dotUpTo_zero A B r q]
  exact dotUpTo_block A B 0 r q

/-- The product of a [16384, 16384] matrix and a [16384, 32] matrix over the extended reals, entry by
    entry: the whole contraction sum. -/
def prod (A : (⟨2, ![16384, 16384]⟩ : Shape).Idx → EReal) (B : (⟨2, ![16384, 32]⟩ : Shape).Idx → EReal) :
    (⟨2, ![16384, 32]⟩ : Shape).Idx → EReal :=
  fun i => dotUpTo (ext 16384 16384 A) (ext 16384 32 B) 16384 (i 0).val (i 1).val

theorem prod_apply (A : (⟨2, ![16384, 16384]⟩ : Shape).Idx → EReal) (B : (⟨2, ![16384, 32]⟩ : Shape).Idx → EReal)
    (i : (⟨2, ![16384, 32]⟩ : Shape).Idx) :
    prod A B i = dotUpTo (ext 16384 16384 A) (ext 16384 32 B) 16384 (i 0).val (i 1).val := rfl

/-- The whole sum over `Fin 16384`, with the two operands read at (row, k) and (k, column), is `prod`. -/
theorem sum_eq_prod (A : (⟨2, ![16384, 16384]⟩ : Shape).Idx → EReal) (B : (⟨2, ![16384, 32]⟩ : Shape).Idx → EReal)
    (i : (⟨2, ![16384, 32]⟩ : Shape).Idx) :
    ∑ k : Fin 16384, A (ix2 ⟨(i 0).val, idx2_lt0 i⟩ k) * B (ix2 k ⟨(i 1).val, idx2_lt1 i⟩) = prod A B i := by
  unfold prod dotUpTo
  rw [← Fin.sum_univ_eq_sum_range (fun j => ext 16384 16384 A (i 0).val j * ext 16384 32 B j (i 1).val) 16384]
  refine Finset.sum_congr rfl fun k _ => ?_
  rw [ext_of_lt A (idx2_lt0 i) k.isLt, ext_of_lt B k.isLt (idx2_lt1 i)]

-- The partial sums are used through the lemmas above only; a sum over 16384 terms is never evaluated.
attribute [irreducible] dotUpTo prod

end Cert.DotSpec

end
-- ==== Proof.Accum.lean ====
/-
  The accumulation across the grid, and the product array it leaves.

  The grid is 16 × 8: point `t` is row block `t / 8` of the left matrix and step `t % 8` along the
  contraction axis.  At point `t` the pipeline hands the body rows `1024·(t/8) …` and columns
  `2048·(t%8) …` of the left matrix and rows `2048·(t%8) …` of the right matrix.  The invariant
  (`acc_eq`): after point `t` the accumulator holds, at row `p` and column `q`, the partial sum
  `∑_{j < 2048·(t%8 + 1)} A (1024·(t/8) + p) j · B j q` — zeroed and restarted whenever `t % 8 = 0`,
  extended by one block of 2048 terms otherwise.  At `t % 8 = 7` that is the whole sum over 16384
  terms, the output block is a copy of the accumulator, and the pipeline writes it back as rows
  `1024·(t/8) …` of the result; the sixteen write-backs tile the result array, which therefore ends
  holding the product.
-/
import proofs.«115345_j53223234732610_1_alg».proof.Proof.Pieces
import proofs.«115345_j53223234732610_1_alg».proof.Proof.BlockDot
import proofs.«115345_j53223234732610_1_alg».proof.Proof.DotSpec

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx
open Idealize.ShloMosaic.Pipeline (Dat)
open Cert.DotSpec

variable (m : (ℓ : Loc nD τ sig) → Buf (Elt Ideal) ℓ)

/-- The left matrix [16384, 16384] and the right matrix [16384, 32] as the region finds them, -/
abbrev lhsArr (c : Dev nD) : FVec Ideal S16384x16384 .f32 := V m c main_arg2
abbrev rhsArr (c : Dev nD) : FVec Ideal S16384x32 .f32 := V m c main_arg1
/-- and the blocks of them the body is handed at point `t`. -/
abbrev lhsBlk (c : Dev nD) (t : Fin cfg0.N) : FVec Ideal S1024x2048 .f32 := iblk m c 0 t
abbrev rhsBlk (c : Dev nD) (t : Fin cfg0.N) : FVec Ideal S2048x32 .f32 := iblk m c 1 t

/-- The block indices at point `t`: (t/8, t%8) of the left matrix, (t%8, 0) of the right, (t/8, 0) of the result. -/
theorem idx_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- Entry (p, j) of the left block at point `t` is entry (1024·(t/8) + p, 2048·(t%8) + j) of the left matrix. -/
theorem lhsBlk_apply (c : Dev nD) (t : Fin cfg0.N) (p : Fin 1024) (j : Fin 2048) :
    lhsBlk m c t (ix2 p j)
      = ext 16384 16384 (lhsArr m c) (1024 * (t.val / 8) + p.val) (2048 * (t.val % 8) + j.val) := by
  have hN : t.val < 128 := lt_of_lt_of_eq t.isLt (show cfg0.N = 128 from N_0)
  have hp := p.isLt
  have hj := j.isLt
  rw [ext_of_lt _ (show 1024 * (t.val / 8) + p.val < 16384 by omega) (show 2048 * (t.val % 8) + j.val < 16384 by omega)]
  obtain ⟨e0, e1, -⟩ := idx_facts t
  show V m c main_arg2 (((cfg0.win 0).blk t).view.emb (ix2 p j)) = V m c main_arg2 _
  refine congrArg (V m c main_arg2) ?_
  funext a
  apply Fin.ext
  match a with
  | ⟨0, _⟩ => show win0_0.index t (0 : Fin 2) * 1024 + 1 * p.val = 1024 * (t.val / 8) + p.val; omega
  | ⟨1, _⟩ => show win0_0.index t (1 : Fin 2) * 2048 + 1 * j.val = 2048 * (t.val % 8) + j.val; omega

/-- Entry (j, q) of the right block at point `t` is entry (2048·(t%8) + j, q) of the right matrix. -/
theorem rhsBlk_apply (c : Dev nD) (t : Fin cfg0.N) (j : Fin 2048) (q : Fin 32) :
    rhsBlk m c t (ix2 j q) = ext 16384 32 (rhsArr m c) (2048 * (t.val % 8) + j.val) q.val := by
  have hN : t.val < 128 := lt_of_lt_of_eq t.isLt (show cfg0.N = 128 from N_0)
  have hq := q.isLt
  have hj := j.isLt
  rw [ext_of_lt _ (show 2048 * (t.val % 8) + j.val < 16384 by omega) hq]
  obtain ⟨-, -, e2, e3, -⟩ := idx_facts t
  show V m c main_arg1 (((cfg0.win 1).blk t).view.emb (ix2 j q)) = V m c main_arg1 _
  refine congrArg (V m c main_arg1) ?_
  funext a
  apply Fin.ext
  match a with
  | ⟨0, _⟩ => show win0_1.index t (0 : Fin 2) * 2048 + 1 * j.val = 2048 * (t.val % 8) + j.val; omega
  | ⟨1, _⟩ => show win0_1.index t (1 : Fin 2) * 32 + 1 * q.val = q.val; omega

/-- The contraction sum of the two blocks at point `t` is 2048 consecutive terms of the matrices' sum. -/
theorem block_sum (c : Dev nD) (t : Fin cfg0.N) (p : Fin 1024) (q : Fin 32) :
    ∑ j : Fin 2048, lhsBlk m c t (ix2 p j) * rhsBlk m c t (ix2 j q)
      = ∑ j : Fin 2048, ext 16384 16384 (lhsArr m c) (1024 * (t.val / 8) + p.val) (2048 * (t.val % 8) + j.val)
          * ext 16384 32 (rhsArr m c) (2048 * (t.val % 8) + j.val) q.val :=
  Finset.sum_congr rfl fun j _ => by rw [lhsBlk_apply, rhsBlk_apply]

/-- THE INVARIANT: after point `n` the accumulator holds the partial sums over the first
    `2048·(n%8 + 1)` terms, for the rows of row block `n / 8`. -/
theorem acc_eq (c : Dev nD) : ∀ (n : ℕ) (h : n < cfg0.N) (p : Fin 1024) (q : Fin 32),
    ((outsAt0 m c n h).2 : FVec Ideal S1024x32 .f32) (ix2 p q)
      = dotUpTo (ext 16384 16384 (lhsArr m c)) (ext 16384 32 (rhsArr m c)) (2048 * (n % 8 + 1)) (1024 * (n / 8) + p.val) q.val := by
  intro n
  induction n using Nat.strong_induction_on with
  | _ n ih =>
    intro h p q
    have hN : n < 128 := lt_of_lt_of_eq h (show cfg0.N = 128 from N_0)
    by_cases h0 : n % 8 = 0
    · have h1 : ¬ n % 8 = 7 := by omega
      rw [outsAt0_A m c ⟨n, h⟩ h0 h1]
      dsimp only
      refine (congrFun (Pieces.acc_first (F := Ideal) c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) scM0_0 (Memref.isWhole_whole _) ((hcond0_0 ⟨n, h⟩).mpr h0) (fun hh => h1 ((hcond0_1 ⟨n, h⟩).mp hh))
        (iblk m c 0 ⟨n, h⟩) (iblk m c 1 ⟨n, h⟩)) (ix2 p q)).trans ?_
      refine (BlockDot.update_apply (lhsBlk m c ⟨n, h⟩) (rhsBlk m c ⟨n, h⟩) (k0_pay1 (F := Ideal)) p q).trans ?_
      rw [BlockDot.zero_apply, block_sum m c ⟨n, h⟩ p q]
      show (0 : EReal) + ∑ j : Fin 2048, ext 16384 16384 (lhsArr m c) (1024 * (n / 8) + p.val) (2048 * (n % 8) + j.val)
          * ext 16384 32 (rhsArr m c) (2048 * (n % 8) + j.val) q.val = _
      rw [h0]
      exact dotUpTo_first _ _ _ _
    · have hlt : n - 1 < cfg0.N := Nat.lt_of_le_of_lt (Nat.sub_le _ _) h
      have ihp := ih (n - 1) (by omega) hlt p q
      rw [show (n - 1) % 8 + 1 = n % 8 by omega, show (n - 1) / 8 = n / 8 by omega] at ihp
      by_cases h1 : n % 8 = 7
      · rw [outsAt0_C m c ⟨n, h⟩ h0 h1]
        dsimp only
        refine (congrFun (Pieces.acc_last (F := Ideal) c (grid0.coords ⟨n, h⟩) (ms0_0 ⟨n, h⟩) (hs0_0 ⟨n, h⟩) (ms0_1 ⟨n, h⟩) (hs0_1 ⟨n, h⟩)
          (ms0_2 ⟨n, h⟩) (hs0_2 ⟨n, h⟩) scM0_0 (Memref.isWhole_whole _) (fun hh => h0 ((hcond0_0 ⟨n, h⟩).mp hh)) ((hcond0_1 ⟨n, h⟩).mpr h1)
          (iblk m c 0 ⟨n, h⟩) (iblk m c 1 ⟨n, h⟩) (outsAt0 m c (n - 1) hlt).2) (ix2 p q)).trans ?_
        refine (BlockDot.update_apply (lhsBlk m c ⟨n, h⟩) (rhsBlk m c ⟨n, h⟩) (outsAt0 m c (n - 1) hlt).2 p q).trans ?_
        rw [ihp, block_sum m c ⟨n, h⟩ p q]
        exact dotUpTo_block _ _ (n % 8) _ _
      · rw [outsAt0_B m c ⟨n, h⟩ h0 h1]
        dsimp only
        refine (congrFun (Pieces.acc_middle (F := Ideal) c (grid0.coords ⟨n, h⟩) (ms0_0 ⟨n, h⟩) (hs0_0 ⟨n, h⟩) (ms0_1 ⟨n, h⟩) (hs0_1 ⟨n, h⟩)
          (ms0_2 ⟨n, h⟩) (hs0_2 ⟨n, h⟩) scM0_0 (Memref.isWhole_whole _) (fun hh => h0 ((hcond0_0 ⟨n, h⟩).mp hh)) (fun hh => h1 ((hcond0_1 ⟨n, h⟩).mp hh))
          (iblk m c 0 ⟨n, h⟩) (iblk m c 1 ⟨n, h⟩) (outsAt0 m c (n - 1) hlt).2) (ix2 p q)).trans ?_
        refine (BlockDot.update_apply (lhsBlk m c ⟨n, h⟩) (rhsBlk m c ⟨n, h⟩) (outsAt0 m c (n - 1) hlt).2 p q).trans ?_
        rw [ihp, block_sum m c ⟨n, h⟩ p q]
        exact dotUpTo_block _ _ (n % 8) _ _

/-- On a last step the output block is a copy of the accumulator. -/
theorem out_eq_acc (c : Dev nD) (t : Fin cfg0.N) (h0 : ¬ t.val % 8 = 0) (h1 : t.val % 8 = 7) :
    (outsAt0 m c t.val t.isLt).1 = (outsAt0 m c t.val t.isLt).2 := by
  have hlt : t.val - 1 < cfg0.N := Nat.lt_of_le_of_lt (Nat.sub_le _ _) t.isLt
  rw [outsAt0_C m c t h0 h1]
  dsimp only
  exact (Pieces.out_last (F := Ideal) c (grid0.coords t) (ms0_0 t) (hs0_0 t) (ms0_1 t) (hs0_1 t) (ms0_2 t) (hs0_2 t) scM0_0
      (Memref.isWhole_whole _) (fun hh => h0 ((hcond0_0 t).mp hh)) ((hcond0_1 t).mpr h1) (iblk m c 0 t) (iblk m c 1 t)
      (outsAt0 m c (t.val - 1) hlt).2).trans
    (Pieces.acc_last (F := Ideal) c (grid0.coords t) (ms0_0 t) (hs0_0 t) (ms0_1 t) (hs0_1 t) (ms0_2 t) (hs0_2 t) scM0_0
      (Memref.isWhole_whole _) (fun hh => h0 ((hcond0_0 t).mp hh)) ((hcond0_1 t).mpr h1) (iblk m c 0 t) (iblk m c 1 t)
      (outsAt0 m c (t.val - 1) hlt).2).symm

/-- What the result array ends holding: the product of the two matrices as the region finds them. -/
abbrev result (c : Dev nD) : Buf (Elt Ideal) ((c : Thread nD τ).loc main_v0) := prod (lhsArr m c) (rhsArr m c)

/-- A write-back (at the points with `t % 8 = 7`) writes rows `1024·(t/8) …` of the product. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  have e4 : win0_2.index t (0 : Fin 2) = t.val / 8 := (idx_facts t).2.2.2.2.1
  have e5 : win0_2.index t (1 : Fin 2) = 0 := (idx_facts t).2.2.2.2.2
  show (cfg0.win 2).cut (grid0.coords t) ((dats m 0 c).after 2 t) = _
  rw [after0_2, out_eq_acc m c t (by omega) h7]
  refine funext fun (j : S1024x32.Idx) => ?_
  obtain ⟨p, q, rfl⟩ : ∃ (p : Fin 1024) (q : Fin 32), j = ix2 p q := ⟨j 0, j 1, eq_ix2 j⟩
  refine (acc_eq m c t.val t.isLt p q).trans ?_
  show _ = prod (lhsArr m c) (rhsArr m c) (((cfg0.win 2).blk t).view.emb (ix2 p q))
  rw [prod_apply]
  have r0 : ((((cfg0.win 2).blk t).view.emb (ix2 p q)) 0).val = 1024 * (t.val / 8) + p.val := by
    show win0_2.index t (0 : Fin 2) * 1024 + 1 * p.val = _; omega
  have r1 : ((((cfg0.win 2).blk t).view.emb (ix2 p q)) 1).val = q.val := by
    show win0_2.index t (1 : Fin 2) * 32 + 1 * q.val = _; omega
  rw [r0, r1, h7]

/-- An index of the result is in point `t`'s block iff each coordinate is in the block's range. -/
theorem mem_blk (t : Fin cfg0.N) (i : S16384x32.Idx) :
    i ∈ ((cfg0.win 2).blk t).view.set ↔ ∀ a : Fin 2, win0_2.index t a * S1024x32.size a ≤ (i a).val
      ∧ (i a).val < win0_2.index t a * S1024x32.size a + S1024x32.size a := by
  show i ∈ ((View.whole main_v0).slice (win0_2.rect t)).set ↔ _
  rw [View.set_slice_whole, Rect.mem_set_unit]
  exact Iff.rfl

/-- Row `r` of the result is written back at the last step of row block `r / 1024`. -/
theorem cover (i : S16384x32.Idx) :
    ∃ t : Fin cfg0.N, (cfg0.win 2).flush t = true ∧ i ∈ ((cfg0.win 2).blk t).view.set := by
  have hi0 : (i 0).val < 16384 := idx2_lt0 i
  have hi1 : (i 1).val < 32 := idx2_lt1 i
  have hN : cfg0.N = 128 := N_0
  have hlt : 8 * ((i 0).val / 1024) + 7 < cfg0.N := by rw [hN]; omega
  obtain ⟨-, -, -, -, e4, e5⟩ := idx_facts ⟨8 * ((i 0).val / 1024) + 7, hlt⟩
  refine ⟨⟨8 * ((i 0).val / 1024) + 7, hlt⟩, (flush0_2 _).mpr (by show (8 * ((i 0).val / 1024) + 7) % 8 = 7; omega), ?_⟩
  rw [mem_blk]
  intro a
  match a with
  | ⟨0, _⟩ =>
    show win0_2.index ⟨8 * ((i 0).val / 1024) + 7, hlt⟩ (0 : Fin 2) * 1024 ≤ (i 0).val
      ∧ (i 0).val < win0_2.index ⟨8 * ((i 0).val / 1024) + 7, hlt⟩ (0 : Fin 2) * 1024 + 1024
    rw [e4]; dsimp only; omega
  | ⟨1, _⟩ =>
    show win0_2.index ⟨8 * ((i 0).val / 1024) + 7, hlt⟩ (1 : Fin 2) * 32 ≤ (i 1).val
      ∧ (i 1).val < win0_2.index ⟨8 * ((i 0).val / 1024) + 7, hlt⟩ (1 : Fin 2) * 32 + 32
    rw [e5]; omega

/-- So the result array ends holding the product. -/
theorem final (c : Dev nD) : (dats m 0 c).arrAt 2 cfg0.N = result m c :=
  (dats m 0 c).arrAt_eq_of_cover 2 (result m c) (flushed_eq m c) cover

end Cert.KernelIdeal.Accum

end
-- ==== Proof.Tail.lean ====
/-
  The message-passing step after the product, and the kernel program's run read as a value.

  Both programs finish with the same host operations on the product `y` [16384, 32] and the edge
  list `g` [2, 524288]: row 0 of `g` (sources, a negative index wrapped once by 16384) gathers rows
  of `y`, and the gathered rows are added into a zero array at the rows named by row 1 of `g`
  (destinations).  `edgeSum y g` is that composite, kept closed: nothing below looks inside it,
  because both sides apply it to the same product and the same edge list.
-/
import proofs.«115345_j53223234732610_1_alg».proof.Proof.Accum
import Idealize.ShloMosaic.Lib.StableHlo.Run

noncomputable section

namespace Cert.KernelIdeal.Tail

open Cert.KernelIdeal Cert.KernelIdeal.Gen Idealize.ShloMosaic Idealize.ShloMosaic.TcCoe Idealize.SL.Sem
open Idealize.ShloMosaic.StableHlo
open Idealize.ShloMosaic.Pipeline (Dat)

/-- Gather the source rows of `y`, scatter-add them at the destination rows. -/
def edgeSum (y : (⟨S16384x32, .f32⟩ : BufTy).Contents (Elt Ideal)) (g : (⟨S2x524288, .i32⟩ : BufTy).Contents (Elt Ideal)) :
    (⟨S16384x32, .f32⟩ : BufTy).Contents (Elt Ideal) :=
  Host.scatterAdd (F := Ideal) scatter_S16384x32_S524288x1_S524288x32_1_0_0_1
    (broadcastInDim S16384x32 ![] bcast_S_S16384x32 (constant (F := Ideal) S_ .f32 0x00000000#32))
    (broadcastInDim S524288x1 ![0] bcast_S524288_S524288x1_0
      (shapeCast S524288 (extractStridedSlice S1x524288 ![1, 0] g slices_S2x524288_S1x524288_1_0) shapeCasts_S1x524288_S524288))
    (Host.gather gather_S16384x32_S524288x1_S524288x32_1_0_n_n_0_1_132 y
      (broadcastInDim S524288x1 ![0] bcast_S524288_S524288x1_0
        (select (cmpi .slt (shapeCast S524288 (extractStridedSlice S1x524288 ![0, 0] g slices_S2x524288_S1x524288_0_0) shapeCasts_S1x524288_S524288) (broadcastInDim S524288 ![] bcast_S_S524288 (constantI S_ 32 0#32)))
          (addi (shapeCast S524288 (extractStridedSlice S1x524288 ![0, 0] g slices_S2x524288_S1x524288_0_0) shapeCasts_S1x524288_S524288) (broadcastInDim S524288 ![] bcast_S_S524288 (constantI S_ 32 16384#32)))
          (shapeCast S524288 (extractStridedSlice S1x524288 ![0, 0] g slices_S2x524288_S1x524288_0_0) shapeCasts_S1x524288_S524288))))

variable (m : (ℓ : Loc nD τ sig) → Buf (Elt Ideal) ℓ) (ρ : Dev nD → PrngReg)

/-- The host operations after the region leave `edgeSum` of the region's result array and the edge list. -/
theorem after_eq (c : Dev nD) :
    Pipeline.afterTail₀ cfgs (dats m) 0 (V0 m) [hostOps1] c main_v14
      = edgeSum ((dats m 0 c).arrAt 2 cfg0.N) (m ((c : Thread nD τ).loc main_arg3)) := by
  unfold Pipeline.afterTail₀
  show StableHlo.after hostOps1 _ (Proc.devRef .tc main_v14) = _
  after_results
  have e0 : Pipeline.withArrays (cfgs 0).spec c (V0 m c) (fun w => (dats m 0 c).arrAt w (cfgs 0).N) (Proc.devRef .tc main_v0)
      = (dats m 0 c).arrAt 2 cfg0.N :=
    Pipeline.withArrays_arr spec0 launch0.win.arr_inj c (V0 m c) (fun w => (dats m 0 c).arrAt w cfg0.N) 2
  have e3 : Pipeline.withArrays (cfgs 0).spec c (V0 m c) (fun w => (dats m 0 c).arrAt w (cfgs 0).N) (Proc.devRef .tc main_arg3)
      = m ((c : Thread nD τ).loc main_arg3) :=
    Pipeline.withArrays_of_ne _ c (V0 m c) _ main_arg3 (by decide : ∀ w, Pipeline.arrRef spec0 w ≠ main_arg3)
  rw [e0, e3]
  rfl

/-- THE KERNEL PROGRAM'S RUN, READ: the result is `edgeSum` of the product of the two matrices and the edge
    list; the four arguments end as they began. -/
theorem run : θ_run defs (onTc (τ := τ) (main (F := Ideal))) ⟨m, fun _ => 0, ρ⟩ fun r => ∀ c : Dev nD,
      r.2.mem ((c.tc : Thread nD τ).loc main_v14)
        = edgeSum (Cert.DotSpec.prod (m ((c.tc : Thread nD τ).loc main_arg2)) (m ((c.tc : Thread nD τ).loc main_arg1)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v14 (Pipeline.mem_restRefs_of main_v14 (by decide) (by decide))).trans
        ((after_eq m c).trans (congrArg (edgeSum · (m ((c.tc : Thread nD τ).loc main_arg3))) (Accum.final m c))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 0).trans (((dats m 0 c).arrAt_in 0 rfl _).trans ((A_eq m c 0).trans (V_main_arg2 m c))),
      ((h c).2 main_arg3 (Pipeline.mem_restRefs_of main_arg3 (by decide) (by decide))).trans (W_main_arg3 m (dats m) c)⟩)
    (run_main m ρ)

end Cert.KernelIdeal.Tail

end
-- ==== Proof.RefProduct.lean ====
/-
  The reference's product.

  The reference multiplies the two whole matrices in one host `dot_general` contracting the left
  operand's columns with the right operand's rows.  Over the extended reals its entry (r, q) is the
  sum over all 16384 values of the contraction index of `A r k · B k q`: the specification's `prod`.
-/
import proofs.«115345_j53223234732610_1_alg».proof.Proof.Gen.ReferenceIdeal.Read
import proofs.«115345_j53223234732610_1_alg».proof.Proof.DotSpec

noncomputable section

open scoped BigOperators

namespace Cert.ReferenceIdeal.RefValue

open Cert.ReferenceIdeal Cert.ReferenceIdeal.Gen Idealize.ShloMosaic Idealize.ShloMosaic.ValueIdx

theorem dot_eq_prod (A : FVec Ideal S16384x16384 .f32) (B : FVec Ideal S16384x32 .f32) :
    Host.dotGeneral (F := Ideal) dot_S16384x16384_S16384x32_S16384x32_1_0_0_1_n_n none A B = Cert.DotSpec.prod A B := by
  funext i
  refine (Cert.ReferenceIdeal.Read.val_main_v0_apply B A i).trans ?_
  refine (Finset.sum_congr rfl fun k _ => ?_).trans (Cert.DotSpec.sum_eq_prod A B i)
  have el : Cert.ReferenceIdeal.Read.lidx_main_v0 i k = ix2 ⟨(i 0).val, idx2_lt0 i⟩ k :=
    funext fun a => Fin.ext (by match a with | ⟨0, _⟩ => rfl | ⟨1, _⟩ => rfl)
  have er : Cert.ReferenceIdeal.Read.ridx_main_v0 i k = ix2 k ⟨(i 1).val, idx2_lt1 i⟩ :=
    funext fun a => Fin.ext (by match a with | ⟨0, _⟩ => rfl | ⟨1, _⟩ => rfl)
  rw [el, er]

end Cert.ReferenceIdeal.RefValue

end
-- ==== Proof.lean ====
/-
  The kernel computes `segment_sum((A · B)[src], dst)` for A = attention scores [16384, 16384],
  B = preference embeddings [16384, 32] and an edge list [2, 524288]; the reference computes the same
  with the product taken in one `dot_general`.

  The kernel's product runs on a 16 × 8 grid: row block i of A (1024 rows), step k along the
  contraction axis (2048 terms), accumulated in a scratch block that is zeroed at k = 0 and copied to
  the output block at k = 7.  Over the extended reals the change of float format before the matrix
  unit is the identity and addition is associative and commutative, so after step k the accumulator
  holds the partial sums over the first 2048·(k+1) terms (Proof/Accum.lean, by induction on the grid
  point), at k = 7 the whole sums, and the sixteen write-backs tile the result: the result array is
  `DotSpec.prod A B`.  The reference's `dot_general` is the same sum (Proof/RefProduct.lean).  The gather
  and scatter-add that follow are the same operations in both programs, applied to the same product and
  the same edge list (`Tail.edgeSum`), so the results agree; no finiteness of the inputs is needed.
  The ideal pass rewrote nothing, so `preserves` is trivial, and the three frames are the programs'
  runs with the result dropped.
-/
import proofs.«115345_j53223234732610_1_alg».proof.Defs
import proofs.«115345_j53223234732610_1_alg».proof.Proof.Gen.Kernel
import proofs.«115345_j53223234732610_1_alg».proof.Proof.Gen.Kernel.Skeleton
import proofs.«115345_j53223234732610_1_alg».proof.Proof.Gen.Kernel.Launch
import proofs.«115345_j53223234732610_1_alg».proof.Proof.Gen.Kernel.Points
import proofs.«115345_j53223234732610_1_alg».proof.Proof.Gen.Kernel.Frame
import proofs.«115345_j53223234732610_1_alg».proof.Proof.Gen.KernelIdeal
import proofs.«115345_j53223234732610_1_alg».proof.Proof.Gen.KernelIdeal.Skeleton
import proofs.«115345_j53223234732610_1_alg».proof.Proof.Gen.KernelIdeal.Launch
import proofs.«115345_j53223234732610_1_alg».proof.Proof.Gen.KernelIdeal.Points
import proofs.«115345_j53223234732610_1_alg».proof.Proof.Gen.KernelIdeal.Frame
import proofs.«115345_j53223234732610_1_alg».proof.Proof.Gen.ReferenceIdeal
import proofs.«115345_j53223234732610_1_alg».proof.Proof.Gen.ReferenceIdeal.Run
import proofs.«115345_j53223234732610_1_alg».proof.Proof.Gen.ReferenceIdeal.Read
import proofs.«115345_j53223234732610_1_alg».proof.Proof.Gen.Pre_finite_inputs
import proofs.«115345_j53223234732610_1_alg».proof.Proof.Tail
import proofs.«115345_j53223234732610_1_alg».proof.Proof.RefProduct
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's last stage is the gather and scatter-add `edgeSum` of its product and the edge list: the
    same operations with the same dimension numbers as the kernel program's. -/
theorem ref_edgeSum (x1 : FVec Ideal Cert.ReferenceIdeal.S16384x32 .f32)
    (x2 : FVec Ideal Cert.ReferenceIdeal.S16384x16384 .f32)
    (x3 : (⟨Cert.ReferenceIdeal.S2x524288, .i32⟩ : BufTy).Contents (Elt Ideal)) :
    Cert.ReferenceIdeal.Read.val_main_v14 (F := Ideal) x1 x2 x3
      = Cert.KernelIdeal.Tail.edgeSum
          (Host.dotGeneral (F := Ideal) Cert.ReferenceIdeal.dot_S16384x16384_S16384x32_S16384x32_1_0_0_1_n_n none x2 x1) x3 := rfl

/-- Both programs end at `edgeSum (A · B) g` of arguments that agree. -/
theorem algebraic : Cert.algebraic_KernelIdeal_ReferenceIdeal := by
  intro m ρ m' ρ' _ hagree
  refine ⟨_, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, ref_edgeSum, Cert.ReferenceIdeal.RefValue.dot_eq_prod,
    (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
